-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S4096x1 : Shape := ⟨2, ![4096, 1]⟩
abbrev S1x4096 : Shape := ⟨2, ![1, 4096]⟩
abbrev S4096x4096x1 : Shape := ⟨3, ![4096, 4096, 1]⟩
abbrev S4096x4096x2 : Shape := ⟨3, ![4096, 4096, 2]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 84
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S1x4096, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S_, .i1⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S1x4096, .i32⟩
  | .hbm, ⟨60, _⟩ => ⟨S4096x4096, .i32⟩
  | .hbm, ⟨61, _⟩ => ⟨S_, .f32⟩
  | .hbm, ⟨62, _⟩ => ⟨S4096x4096, .f32⟩
  | .hbm, ⟨63, _⟩ => ⟨S_, .i32⟩
  | .hbm, ⟨64, _⟩ => ⟨S4096x4096, .i32⟩
  | .hbm, ⟨65, _⟩ => ⟨S4096x4096, .i1⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x1, .i32⟩
  | .hbm, ⟨79, _⟩ => ⟨S4096x4096x2, .i32⟩
  | .hbm, ⟨80, _⟩ => ⟨S4096x4096, .f32⟩
  | .hbm, ⟨81, _⟩ => ⟨S8192x4096, .bf16⟩
  | .hbm, ⟨82, _⟩ => ⟨S4096x4096, .bf16⟩
  | .hbm, ⟨83, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_8 : Ref sig .tc := ⟨.hbm, 70, rfl⟩
abbrev main_v32 : Ref sig .tc := ⟨.hbm, 71, rfl⟩
abbrev main_v33 : Ref sig .tc := ⟨.hbm, 72, rfl⟩
abbrev main_c_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  scatter_S4096x4096_S4096x4096x2_S4096x4096_n_01_01_2_wf : ScatterDims.WF S4096x4096 S4096x4096x2 S4096x4096 [] [0, 1] [0, 1] 2
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def scatter_S4096x4096_S4096x4096x2_S4096x4096_n_01_01_2 : ScatterDims S4096x4096 S4096x4096x2 S4096x4096 where
  updateWindowDims := []
  insertedWindowDims := [0, 1]
  scatterDimsToOperandDims := [0, 1]
  indexVectorDim := 2
  wf := scatter_S4096x4096_S4096x4096x2_S4096x4096_n_01_01_2_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v41) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S4096x1 : Shape := ⟨2, ![4096, 1]⟩
abbrev S1x4096 : Shape := ⟨2, ![1, 4096]⟩
abbrev S4096x4096x1 : Shape := ⟨3, ![4096, 4096, 1]⟩
abbrev S4096x4096x2 : Shape := ⟨3, ![4096, 4096, 2]⟩

abbrev nBuf : Space → Nat
  | .hbm => 83
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S1x4096, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S_, .i1⟩
  | .hbm, ⟨53, _⟩ => ⟨S4096x4096, .i1⟩
  | .hbm, ⟨54, _⟩ => ⟨S4096x4096, .i1⟩
  | .hbm, ⟨55, _⟩ => ⟨S4096x4096, .i1⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S1x4096, .i32⟩
  | .hbm, ⟨60, _⟩ => ⟨S4096x4096, .i32⟩
  | .hbm, ⟨61, _⟩ => ⟨S_, .f32⟩
  | .hbm, ⟨62, _⟩ => ⟨S4096x4096, .f32⟩
  | .hbm, ⟨63, _⟩ => ⟨S_, .i32⟩
  | .hbm, ⟨64, _⟩ => ⟨S4096x4096, .i32⟩
  | .hbm, ⟨65, _⟩ => ⟨S4096x4096, .i1⟩
  | .hbm, ⟨66, _⟩ => ⟨S_, .i32⟩
  | .hbm, ⟨67, _⟩ => ⟨S4096x4096, .i32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x1, .i32⟩
  | .hbm, ⟨79, _⟩ => ⟨S4096x4096x2, .i32⟩
  | .hbm, ⟨80, _⟩ => ⟨S4096x4096, .f32⟩
  | .hbm, ⟨81, _⟩ => ⟨S4096x4096, .f32⟩
  | .hbm, ⟨82, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_c_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_8 : Ref sig .tc := ⟨.hbm, 70, rfl⟩
abbrev main_v32 : Ref sig .tc := ⟨.hbm, 71, rfl⟩
abbrev main_v33 : Ref sig .tc := ⟨.hbm, 72, rfl⟩
abbrev main_c_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩

abbrev nD : Nat := 1
abbrev τ : Topo := Topo.v7x

variable {F : FTy → Type} [FloatOps F]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  transposes_S4096x4096_S4096x4096_1_0 : S4096x4096.Transposes [1, 0] S4096x4096
  scatter_S4096x4096_S4096x4096x2_S4096x4096_n_01_01_2_wf : ScatterDims.WF S4096x4096 S4096x4096x2 S4096x4096 [] [0, 1] [0, 1] 2
  dot_S8192x4096_S4096x4096_S8192x4096_1_0_0_1_n_n_wf : DotDims.WF S8192x4096 S4096x4096 S8192x4096 [1] [0] [0] [1] [] []

variable [Facts₀]

def scatter_S4096x4096_S4096x4096x2_S4096x4096_n_01_01_2 : ScatterDims S4096x4096 S4096x4096x2 S4096x4096 where
  updateWindowDims := []
  insertedWindowDims := [0, 1]
  scatterDimsToOperandDims := [0, 1]
  indexVectorDim := 2
  wf := scatter_S4096x4096_S4096x4096x2_S4096x4096_n_01_01_2_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibScatterSwap.lean ====
/-
  A point scatter-add into a SQUARE matrix whose index vector is a pair of index planes, and the same scatter with the
  two planes exchanged.

  An update element `j` of a scatter with no window axis lands at the operand position whose coordinate on axis `a` is
  the `a`-th component of its index vector (read signed, not clamped), provided every coordinate is in range; otherwise
  it is dropped. When the index vector at `j` is the pair `(X j, Y j)` of two index planes laid side by side, exchanging
  the planes exchanges the two landing coordinates; on a square operand the range test is the same for both axes, so
  `j` lands at `(a, b)` in the one scatter exactly when it lands at `(b, a)` in the other. The exact sum of the updates
  landing at a position is therefore the same sum at the mirrored position: the second scatter's result is the
  transpose of the first's.
-/
import Idealize.ShloMosaic.PureOps.Ideal.Laws
import Idealize.ShloMosaic.Lib.ValueIdx
import Idealize.ShloMosaic.Lib.Pipeline.Value

noncomputable section

open scoped BigOperators

namespace Cert.Lib.ScatterSwap

open Idealize.ShloMosaic Idealize.ShloMosaic.ValueIdx

/-- An update element lands at position `i` exactly when, on every axis, its start plus its window coordinate is
    `i`'s coordinate (an in-range landing position is determined by its coordinates, and `i`'s are in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro e a
      have e' : ((d.start j idx a + (d.window j a : Int)).toNat) = (i a).val := by
        have := congrFun e a
        exact congrArg Fin.val this
      have h' := h a
      omega
    · intro e
      funext a
      apply Fin.ext
      have e' := e a
      show (d.start j idx a + (d.window j a : Int)).toNat = (i a).val
      omega
  · constructor
    · intro e; exact absurd e (by simp)
    · intro e
      exfalso; apply h
      intro a
      have e' := e a
      have hlt := (i a).isLt
      omega

/-! ## The shapes of a point scatter by a pair of index planes -/

/-- The square operand. -/
abbrev Sq (n : Nat) : Shape := ⟨2, ![n, n]⟩
/-- The updates, and each index plane. -/
abbrev Upd (p q : Nat) : Shape := ⟨2, ![p, q]⟩
/-- An index plane with the trailing unit axis the concatenation runs along. -/
abbrev Plane (p q : Nat) : Shape := ⟨3, ![p, q, 1]⟩
/-- The two planes side by side: at `(x, y, c)` component `c` of update `(x, y)`'s index vector. -/
abbrev Pairs (p q : Nat) : Shape := ⟨3, ![p, q, 2]⟩

variable {n p q w : Nat}

/-- The scatter indices built from two index planes: each given its trailing unit axis, then laid side by side. -/
def pairIdx (hb : (Upd p q).BroadcastsInDim (Plane p q) ![0, 1])
    (hc : Shape.Concatenates [Plane p q, Plane p q] (Pairs p q) 2) (X Y : IVec (Upd p q) w) : IVec (Pairs p q) w :=
  concatenate (Pairs p q) 2 [⟨Plane p q, broadcastInDim (Plane p q) ![0, 1] hb X⟩,
    ⟨Plane p q, broadcastInDim (Plane p q) ![0, 1] hb Y⟩] hc

/-- A plane given its unit axis reads the plane. -/
theorem plane_apply (hb : (Upd p q).BroadcastsInDim (Plane p q) ![0, 1]) (X : IVec (Upd p q) w) (x : Fin p) (y : Fin q) :
    broadcastInDim (Plane p q) ![0, 1] hb X (ix3 x y 0) = X (ix2 x y) := by
  refine broadcastInDim_apply ![0, 1] hb X (ix3 x y 0) (ix2 x y) fun a => ?_
  match a with
  | ⟨0, _⟩ =>
    show x.val = if p = 1 then 0 else x.val
    by_cases h : p = 1
    · rw [if_pos h]; have := x.isLt; omega
    · rw [if_neg h]
  | ⟨1, _⟩ =>
    show y.val = if q = 1 then 0 else y.val
    by_cases h : q = 1
    · rw [if_pos h]; have := y.isLt; omega
    · rw [if_neg h]

/-- Component 0 of the index vector is the first plane. -/
theorem pairIdx_zero (hb : (Upd p q).BroadcastsInDim (Plane p q) ![0, 1])
    (hc : Shape.Concatenates [Plane p q, Plane p q] (Pairs p q) 2) (X Y : IVec (Upd p q) w) (x : Fin p) (y : Fin q) :
    pairIdx hb hc X Y (ix3 x y 0) = X (ix2 x y) := by
  unfold pairIdx
  refine (concatenate_pair_apply_left (t := Pairs p q) (s₁ := Plane p q) (s₂ := Plane p q) (2 : Fin 3) _ _ hc
    (ix3 x y (0 : Fin 2)) rfl (ix3 x y (0 : Fin 1)) (fun b => ?_)).trans (plane_apply hb X x y)
  match b with
  | ⟨0, _⟩ => rfl
  | ⟨1, _⟩ => rfl
  | ⟨2, _⟩ => rfl

/-- Component 1 of the index vector is the second plane. -/
theorem pairIdx_one (hb : (Upd p q).BroadcastsInDim (Plane p q) ![0, 1])
    (hc : Shape.Concatenates [Plane p q, Plane p q] (Pairs p q) 2) (X Y : IVec (Upd p q) w) (x : Fin p) (y : Fin q) :
    pairIdx hb hc X Y (ix3 x y 1) = Y (ix2 x y) := by
  unfold pairIdx
  refine (concatenate_pair_apply_right (t := Pairs p q) (s₁ := Plane p q) (s₂ := Plane p q) (2 : Fin 3) _ _ hc
    (ix3 x y (1 : Fin 2)) rfl rfl (ix3 x y (0 : Fin 1)) (fun b hb' => ?_) rfl).trans (plane_apply hb Y x y)
  match b with
  | ⟨0, _⟩ => rfl
  | ⟨1, _⟩ => rfl
  | ⟨2, _⟩ => exact absurd rfl hb'

/-! ## Where an update lands -/

/-- With both operand axes inserted there is no window axis: every window coordinate is zero. -/
theorem window_eq_zero (d : ScatterDims (Sq n) (Pairs p q) (Upd p q)) (hi : d.insertedWindowDims = [0, 1])
    (j : (Upd p q).Idx) (a : Fin 2) : d.window j a = 0 := by
  have hk : d.sKept = [] := by
    show (Sq n).kept d.insertedWindowDims = []
    rw [hi]; rfl
  unfold ScatterDims.window
  rw [dif_neg (by rw [hk]; exact List.not_mem_nil)]

/-- Update `(x, y)` reads component `c` of its index vector at `(x, y, c)`. -/
theorem siIdx_eq (d : ScatterDims (Sq n) (Pairs p q) (Upd p q)) (hu : d.updateWindowDims = [])
    (hs : d.scatterDimsToOperandDims = [0, 1]) (hv : d.indexVectorDim = 2) (j : (Upd p q).Idx)
    (c : Fin d.scatterDimsToOperandDims.length) (c' : Fin 2) (hc : c.val = c'.val) :
    d.siIdx j c = ix3 (j 0) (j 1) c' := by
  obtain ⟨uw, iw, sd, iv, wf⟩ := d
  dsimp only at hu hs hv c hc ⊢
  subst hu hs hv
  funext b
  match b with
  | ⟨0, _⟩ => exact Fin.ext rfl
  | ⟨1, _⟩ => exact Fin.ext rfl
  | ⟨2, _⟩ => exact Fin.ext hc

/-- The landing coordinate on axis 0 is component 0 of the index vector, read signed. -/
theorem start_zero (d : ScatterDims (Sq n) (Pairs p q) (Upd p q)) (hu : d.updateWindowDims = [])
    (hs : d.scatterDimsToOperandDims = [0, 1]) (hv : d.indexVectorDim = 2) (idx : IVec (Pairs p q) w)
    (j : (Upd p q).Idx) : d.start j idx 0 = (idx (ix3 (j 0) (j 1) 0)).toInt := by
  have hm : (0 : Fin 2) ∈ d.scatterDimsToOperandDims := by rw [hs]; exact List.mem_cons_self
  unfold ScatterDims.start
  rw [dif_pos hm]
  refine congrArg (fun k => (idx k).toInt) (siIdx_eq d hu hs hv j _ 0 ?_)
  show d.scatterDimsToOperandDims.idxOf (0 : Fin 2) = 0
  rw [hs]; rfl

/-- The landing coordinate on axis 1 is component 1 of the index vector, read signed. -/
theorem start_one (d : ScatterDims (Sq n) (Pairs p q) (Upd p q)) (hu : d.updateWindowDims = [])
    (hs : d.scatterDimsToOperandDims = [0, 1]) (hv : d.indexVectorDim = 2) (idx : IVec (Pairs p q) w)
    (j : (Upd p q).Idx) : d.start j idx 1 = (idx (ix3 (j 0) (j 1) 1)).toInt := by
  have hm : (1 : Fin 2) ∈ d.scatterDimsToOperandDims := by
    rw [hs]; exact List.mem_cons_of_mem _ List.mem_cons_self
  unfold ScatterDims.start
  rw [dif_pos hm]
  refine congrArg (fun k => (idx k).toInt) (siIdx_eq d hu hs hv j _ 1 ?_)
  show d.scatterDimsToOperandDims.idxOf (1 : Fin 2) = 1
  rw [hs]; rfl

/-- Update `(x, y)` lands at `i` exactly when the two components of its index vector, read signed, are `i`'s two
    coordinates. -/
theorem lands_iff (d : ScatterDims (Sq n) (Pairs p q) (Upd p q)) (hu : d.updateWindowDims = [])
    (hi : d.insertedWindowDims = [0, 1]) (hs : d.scatterDimsToOperandDims = [0, 1]) (hv : d.indexVectorDim = 2)
    (idx : IVec (Pairs p q) w) (x : Fin p) (y : Fin q) (i : (Sq n).Idx) :
    d.resultIdx? (ix2 x y) idx = some i ↔
      (idx (ix3 x y 0)).toInt = ((i 0).val : Int) ∧ (idx (ix3 x y 1)).toInt = ((i 1).val : Int) := by
  have s0 : d.start (ix2 x y) idx 0 = (idx (ix3 x y 0)).toInt := start_zero d hu hs hv idx (ix2 x y)
  have s1 : d.start (ix2 x y) idx 1 = (idx (ix3 x y 1)).toInt := start_one d hu hs hv idx (ix2 x y)
  rw [resultIdx?_eq_some_iff]
  constructor
  · intro h
    have h0 := h 0
    have h1 := h 1
    rw [s0, window_eq_zero d hi] at h0
    rw [s1, window_eq_zero d hi] at h1
    exact ⟨by omega, by omega⟩
  · rintro ⟨h0, h1⟩ a
    match a with
    | ⟨0, _⟩ =>
      show d.start (ix2 x y) idx 0 + (d.window (ix2 x y) 0 : Int) = ((i 0).val : Int)
      rw [s0, window_eq_zero d hi]; omega
    | ⟨1, _⟩ =>
      show d.start (ix2 x y) idx 1 + (d.window (ix2 x y) 1 : Int) = ((i 1).val : Int)
      rw [s1, window_eq_zero d hi]; omega

/-- Exchanging the two index planes mirrors where each update lands. -/
theorem lands_swap (d : ScatterDims (Sq n) (Pairs p q) (Upd p q)) (hu : d.updateWindowDims = [])
    (hi : d.insertedWindowDims = [0, 1]) (hs : d.scatterDimsToOperandDims = [0, 1]) (hv : d.indexVectorDim = 2)
    (hb : (Upd p q).BroadcastsInDim (Plane p q) ![0, 1])
    (hc : Shape.Concatenates [Plane p q, Plane p q] (Pairs p q) 2) (X Y : IVec (Upd p q) w) (j : (Upd p q).Idx)
    (a b : Fin n) :
    d.resultIdx? j (pairIdx hb hc X Y) = some (ix2 a b) ↔ d.resultIdx? j (pairIdx hb hc Y X) = some (ix2 b a) := by
  obtain ⟨x, y, rfl⟩ : ∃ (x : Fin p) (y : Fin q), j = ix2 x y := ⟨j 0, j 1, eq_ix2 j⟩
  rw [lands_iff d hu hi hs hv, lands_iff d hu hi hs hv, pairIdx_zero, pairIdx_one, pairIdx_zero, pairIdx_one]
  constructor
  · rintro ⟨h0, h1⟩; exact ⟨h1, h0⟩
  · rintro ⟨h0, h1⟩; exact ⟨h1, h0⟩

/-- THE TRANSPOSE: the exact scatter-add by the planes `(X, Y)` at `(a, b)` is the scatter-add by `(Y, X)` at `(b, a)`, the
    operands' entries mirrored likewise: the same updates land, so the same sum is added. -/
theorem hostScatterAdd_swap (d : ScatterDims (Sq n) (Pairs p q) (Upd p q)) (hu : d.updateWindowDims = [])
    (hi : d.insertedWindowDims = [0, 1]) (hs : d.scatterDimsToOperandDims = [0, 1]) (hv : d.indexVectorDim = 2)
    (hb : (Upd p q).BroadcastsInDim (Plane p q) ![0, 1])
    (hc : Shape.Concatenates [Plane p q, Plane p q] (Pairs p q) 2) (X Y : IVec (Upd p q) w)
    (z z' : (Sq n).Idx → EReal) (hz : ∀ a b, z (ix2 a b) = z' (ix2 b a)) (upd : (Upd p q).Idx → EReal) (a b : Fin n) :
    Ideal.hostScatterAdd d z (pairIdx hb hc X Y) upd (ix2 a b)
      = Ideal.hostScatterAdd d z' (pairIdx hb hc Y X) upd (ix2 b a) := by
  unfold Ideal.hostScatterAdd
  rw [hz a b]
  exact congrArg (z' (ix2 b a) + ·) (Finset.sum_congr
    (Finset.filter_congr fun j _ => lands_swap d hu hi hs hv hb hc X Y j a b) fun _ _ => rfl)

end Cert.Lib.ScatterSwap

end
-- ==== Proof.Product.lean ====
/-
  The one equation between the two programs' results.

  Both programs multiply the input `x` (8192 × 4096) by a 4096 × 4096 weight matrix built by scatter-adding the same
  scaled diagonals `U` into a zero matrix. One writes diagonal entry `(n, d)` at position `(X (n, d), Y (n, d))` and
  multiplies by the result directly; the other writes it at the mirrored position `(Y (n, d), X (n, d))`, transposes, and
  multiplies. Scatter-adding at mirrored positions into a square matrix gives the transposed matrix (the same updates
  land, so the same sums are added), so the matrix the second program multiplies by is, entry by entry, the first's, and
  the two products are the same sums `∑ k, x (b, k) · W (k, o)`. Nothing here needs the entries to be finite: no sum is
  re-arranged and no factor moved.
-/
import Idealize.ShloMosaic.PureOps.Ideal.Laws
import Idealize.ShloMosaic.Lib.ValueIdx
import Idealize.ShloMosaic.Lib.ValueLayout
import proofs.«122876_j65618510348677_1_alg».proof.Proof.LibContraction
import proofs.«122876_j65618510348677_1_alg».proof.Proof.LibScatterSwap

noncomputable section

open scoped BigOperators

namespace Cert.Product

open Idealize.ShloMosaic Idealize.ShloMosaic.ValueIdx
open Cert.Lib.ScatterSwap (Sq Upd Plane Pairs pairIdx)

/-- The input's shape, and the result's. -/
abbrev Rows : Shape := ⟨2, ![8192, 4096]⟩

/-- The product of an 8192 × 4096 matrix with a 4096 × 4096 one, entry by entry, over the extended reals. -/
def matProd (A : Rows.Idx → EReal) (B : (Sq 4096).Idx → EReal) : Rows.Idx → EReal :=
  fun i => ∑ k : Fin 4096, A (ix2 (i 0) k) * B (ix2 k (i 1))

/-- The product at the entry of row `b` and column `o`. -/
theorem matProd_apply (A : Rows.Idx → EReal) (B : (Sq 4096).Idx → EReal) (b : Fin 8192) (o : Fin 4096) :
    matProd A B (ix2 b o) = ∑ k : Fin 4096, A (ix2 b k) * B (ix2 k o) := rfl

/-- The host's `dot_general` contracting the left operand's columns with the right operand's rows is that product. -/
theorem dotGeneral_eq_matProd (D : DotDims Rows (Sq 4096) Rows) (hlc : D.lhsContracting = [1])
    (hrc : D.rhsContracting = [0]) (hln : D.lhsNonContracting = [0]) (hrn : D.rhsNonContracting = [1])
    (hlb : D.lhsBatch = []) (hrb : D.rhsBatch = []) (x : FVec Ideal Rows .f32) (W : FVec Ideal (Sq 4096) .f32) :
    Host.dotGeneral D none x W = matProd x W := by
  funext i
  obtain ⟨b, o, rfl⟩ : ∃ (b : Fin 8192) (o : Fin 4096), i = ix2 b o := ⟨i 0, i 1, eq_ix2 i⟩
  rw [matProd_apply]
  show FloatOps.dotGeneral D none .single x W (ix2 b o) = _
  rw [Ideal.dotGeneral_apply, Cert.Lib.Contraction.sum_contr D hlc 4096 rfl]
  refine Finset.sum_congr rfl fun k _ => ?_
  have hl : D.lhsIdx (ix2 b o) ((Cert.Lib.Contraction.contrFin D hlc 4096 rfl).symm k) = ix2 b k := by
    funext a
    match a with
    | ⟨0, _⟩ => exact Fin.ext (Cert.Lib.Contraction.lhs_free D hlb hln (ix2 b o) _ (by decide))
    | ⟨1, _⟩ => exact Fin.ext (Cert.Lib.Contraction.lhs_contracted D hlc 4096 rfl (ix2 b o) k)
  have hr : D.rhsIdx (ix2 b o) ((Cert.Lib.Contraction.contrFin D hlc 4096 rfl).symm k) = ix2 k o := by
    funext a
    match a with
    | ⟨0, _⟩ => exact Fin.ext (Cert.Lib.Contraction.rhs_contracted D hlc hrc 4096 rfl (ix2 b o) k)
    | ⟨1, _⟩ => exact Fin.ext (Cert.Lib.Contraction.rhs_free D hlb hrb hln hrn (ix2 b o) _ (by decide))
  rw [hl, hr]

/-- THE BRIDGE. Multiplying by the transpose of the matrix scattered at positions `(Y, X)` is multiplying by the matrix
    scattered at positions `(X, Y)`. -/
theorem dot_transpose_scatter (D : DotDims Rows (Sq 4096) Rows) (hlc : D.lhsContracting = [1])
    (hrc : D.rhsContracting = [0]) (hln : D.lhsNonContracting = [0]) (hrn : D.rhsNonContracting = [1])
    (hlb : D.lhsBatch = []) (hrb : D.rhsBatch = [])
    (ht : (Sq 4096).Transposes [1, 0] (Sq 4096))
    (d : ScatterDims (Sq 4096) (Pairs 4096 4096) (Upd 4096 4096)) (hu : d.updateWindowDims = [])
    (hi : d.insertedWindowDims = [0, 1]) (hs : d.scatterDimsToOperandDims = [0, 1]) (hv : d.indexVectorDim = 2)
    (hb : (Upd 4096 4096).BroadcastsInDim (Plane 4096 4096) ![0, 1])
    (hc : Shape.Concatenates [Plane 4096 4096, Plane 4096 4096] (Pairs 4096 4096) 2)
    (X Y : IVec (Upd 4096 4096) 32) (z : (Sq 4096).Idx → EReal) (hz : ∀ a b, z (ix2 a b) = z (ix2 b a))
    (U : (Upd 4096 4096).Idx → EReal) (x : FVec Ideal Rows .f32) :
    Host.dotGeneral D none x
        (transpose (Sq 4096) [1, 0] (Ideal.hostScatterAdd d z (pairIdx hb hc Y X) U) ht : FVec Ideal (Sq 4096) .f32)
      = matProd x (Ideal.hostScatterAdd d z (pairIdx hb hc X Y) U) := by
  rw [dotGeneral_eq_matProd D hlc hrc hln hrn hlb hrb]
  funext i
  obtain ⟨b, o, rfl⟩ : ∃ (b : Fin 8192) (o : Fin 4096), i = ix2 b o := ⟨i 0, i 1, eq_ix2 i⟩
  rw [matProd_apply, matProd_apply]
  refine Finset.sum_congr rfl fun k _ => ?_
  refine congrArg (x (ix2 b k) * ·) ?_
  exact (transpose_ix2_apply (a := 4096) (b := 4096) _ ht k o).trans
    (Cert.Lib.ScatterSwap.hostScatterAdd_swap d hu hi hs hv hb hc Y X z z hz U o k)

end Cert.Product

end
-- ==== Proof.KernelBlocks.lean ====
/-
  The kernel's result array as ONE function of the two arrays its region stages.

  The region's grid is 16 × 4. At point `(I, J)` the body loads rows `512·I … 512·I + 511` of the left array (all 4096
  columns) and columns `1024·J … 1024·J + 1023` of the right array (all 4096 rows), multiplies the two blocks on the
  matrix unit into a zero accumulator, and stores the 512 × 1024 product whole; the pipeline writes it back as block
  `(I, J)` of the result. Entry `(r, c)` of that block is `∑ k, A(512·I + r, k) · B(k, 1024·J + c)`, which is entry
  `(512·I + r, 1024·J + c)` of the full product `A · B`: every point writes its block of one whole-array function, and
  the 64 blocks tile the result, so after the run the result array is `A · B`.
-/
import proofs.«122876_j65618510348677_1_alg».proof.Proof.Gen.KernelIdeal.Value
import proofs.«122876_j65618510348677_1_alg».proof.Proof.LibContraction
import proofs.«122876_j65618510348677_1_alg».proof.Proof.Product
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

/-- The block product's dimension numbers: contract the left block's columns with the right block's rows. -/
abbrev blockDot : DotDims S512x4096 S4096x1024 S512x1024 := dot_S512x4096_S4096x1024_S512x1024_1_0_0_1_n_n

/-- The contraction's positions, numbered by the contracted extent. -/
abbrev pos (k : Fin 4096) : blockDot.contr.Idx :=
  (Cert.Lib.Contraction.contrFin blockDot (cl := 1) rfl 4096 rfl).symm k

theorem lhs_row (j : S512x1024.Idx) (k : Fin 4096) : (blockDot.lhsIdx j (pos k) 0).val = (j 0).val :=
  Cert.Lib.Contraction.lhs_free blockDot (nl := 0) rfl rfl j (pos k) (by decide)
theorem lhs_col (j : S512x1024.Idx) (k : Fin 4096) : (blockDot.lhsIdx j (pos k) 1).val = k.val :=
  Cert.Lib.Contraction.lhs_contracted blockDot (cl := 1) rfl 4096 rfl j k
theorem rhs_row (j : S512x1024.Idx) (k : Fin 4096) : (blockDot.rhsIdx j (pos k) 0).val = k.val :=
  Cert.Lib.Contraction.rhs_contracted blockDot (cl := 1) (cr := 0) rfl rfl 4096 rfl j k
theorem rhs_col (j : S512x1024.Idx) (k : Fin 4096) : (blockDot.rhsIdx j (pos k) 1).val = (j 1).val :=
  Cert.Lib.Contraction.rhs_free blockDot (nl := 0) (nr := 1) rfl rfl rfl rfl j (pos k) (by decide)

/-- The body's stored value at entry `(r, c)`: the sum over `k` of the left block's `(r, k)` times the right block's
    `(k, c)` (the matrix unit's product into a zero accumulator is the plain sum over the extended reals). -/
theorem pay_apply (x0 : Vec Ideal S512x4096 .bf16) (x1 : Vec Ideal S4096x1024 .bf16) (r : Fin 512) (c : Fin 1024) :
    k0_pay1 x0 x1 (ix2 r c) = ∑ k : Fin 4096, x0 (ix2 r k) * x1 (ix2 k c) := by
  unfold k0_pay1
  rw [shapeCast_self, shapeCast_self]
  refine (Ideal.matmul_constant_zero_apply (φ₁ := .bf16) (φ₂ := .bf16) blockDot none x0 x1 (ix2 r c)).trans ?_
  rw [Cert.Lib.Contraction.sum_contr blockDot (cl := 1) rfl 4096 rfl]
  refine Finset.sum_congr rfl fun k _ => ?_
  have hl : blockDot.lhsIdx (ix2 r c) (pos k) = ix2 r k := by
    funext a
    match a with
    | ⟨0, _⟩ => exact Fin.ext (lhs_row (ix2 r c) k)
    | ⟨1, _⟩ => exact Fin.ext (lhs_col (ix2 r c) k)
  have hr : blockDot.rhsIdx (ix2 r c) (pos k) = ix2 k c := by
    funext a
    match a with
    | ⟨0, _⟩ => exact Fin.ext (rhs_row (ix2 r c) k)
    | ⟨1, _⟩ => exact Fin.ext (rhs_col (ix2 r c) k)
  show x0 (blockDot.lhsIdx (ix2 r c) (pos k)) * x1 (blockDot.rhsIdx (ix2 r c) (pos k)) = _
  rw [hl, hr]

/-! ## From the blocks to the array -/

variable (m : (ℓ : Loc nD τ sig) → Buf (Elt Ideal) ℓ) (ρ : Dev nD → PrngReg)

/-- The left array as the region finds it: what the host left in the first staged operand. -/
abbrev lhsArr (c : Dev nD) : S8192x4096.Idx → EReal := V m c main_v41
/-- The right array as the region finds it. -/
abbrev rhsArr (c : Dev nD) : S4096x4096.Idx → EReal := V m c main_v42

theorem hz : (![0, 0] : Fin 2 → Nat) = fun _ => 0 := funext fun a => by fin_cases a <;> rfl

/-- The printed index maps, decided over the 64 grid points: the left window follows the result's block row and
    stays at block column 0; the right window stays at block row 0 and follows the result's block column; the
    result's block indices stay in the 16 × 4 box. -/
theorem idx_facts : ∀ t : Fin cfg0.N,
      win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every block of the 16 × 4 box is SOME point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The left window's block at a point reads the left array through the block. -/
theorem lblk_read (c : Dev nD) (t : Fin cfg0.N) (y : S512x4096.Idx) :
    (iblk m c 0 t y : EReal) = lhsArr m c (((cfg0.win 0).blk t).view.emb y) := rfl

/-- The right window's block at a point reads the right array through the block. -/
theorem rblk_read (c : Dev nD) (t : Fin cfg0.N) (y : S4096x1024.Idx) :
    (iblk m c 1 t y : EReal) = rhsArr m c (((cfg0.win 1).blk t).view.emb y) := rfl

/-- WHAT POINT `t` WRITES BACK is block `t` of the full product of the two staged arrays. -/
theorem flushed_eq (c : Dev nD) (t : Fin cfg0.N) :
    (dats m 0 c).flushed 2 t
      = ((cfg0.win 2).blk t).view.read (Elt Ideal) (Cert.Product.matProd (lhsArr m c) (rhsArr m c)) := by
  rw [Value.flushed2]
  unfold out0_2
  rw [View.canon_unit_zero hz]
  simp only [View.ld_unit_zero (S := S512x4096) hz, View.ld_unit_zero (S := S4096x1024) hz]
  obtain ⟨e0, e1, e2, e3, e4, e5⟩ := idx_facts t
  funext j
  obtain ⟨r, cc, rfl⟩ : ∃ (r : Fin 512) (cc : Fin 1024), j = ix2 r cc := ⟨j 0, j 1, eq_ix2 j⟩
  show k0_pay1 (iblk m c 0 t) (iblk m c 1 t) (ix2 r cc) = _
  rw [View.read_apply]
  unfold Cert.Product.matProd
  refine (pay_apply (iblk m c 0 t) (iblk m c 1 t) r cc).trans ?_
  refine Finset.sum_congr rfl fun k _ => ?_
  have h0 : ((cfg0.win 0).blk t).view.emb (ix2 r k)
      = ix2 ((((cfg0.win 2).blk t).view.emb (ix2 r cc)) 0) k := by
    funext a; apply Fin.ext
    match a with
    | ⟨0, _⟩ =>
      show win0_0.index t (0 : Fin 2) * 512 + 1 * r.val = win0_2.index t (0 : Fin 2) * 512 + 1 * r.val
      omega
    | ⟨1, _⟩ =>
      show win0_0.index t (1 : Fin 2) * 4096 + 1 * k.val = k.val
      omega
  have h1 : ((cfg0.win 1).blk t).view.emb (ix2 k cc)
      = ix2 k ((((cfg0.win 2).blk t).view.emb (ix2 r cc)) 1) := by
    funext a; apply Fin.ext
    match a with
    | ⟨0, _⟩ =>
      show win0_1.index t (0 : Fin 2) * 4096 + 1 * k.val = k.val
      omega
    | ⟨1, _⟩ =>
      show win0_1.index t (1 : Fin 2) * 1024 + 1 * cc.val = win0_2.index t (1 : Fin 2) * 1024 + 1 * cc.val
      omega
  refine congrArg₂ (fun u v : EReal => u * v) ?_ ?_
  · exact (lblk_read m c t (ix2 r k)).trans (congrArg (lhsArr m c) h0)
  · exact (rblk_read m c t (ix2 k cc)).trans (congrArg (rhsArr m c) h1)

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v43).slice (win0_2.rect t)).set ↔ _
  rw [View.set_slice_whole, Rect.mem_set_unit]
  exact Iff.rfl

/-- The 64 blocks tile the result: row `r` is in block row `r / 512`, column `c` in block column `c / 1024`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- THE RESULT ARRAY after the run is the full product of the two staged arrays. -/
theorem final (c : Dev nD) :
    (dats m 0 c).arrAt 2 cfg0.N = Cert.Product.matProd (lhsArr m c) (rhsArr m c) :=
  (dats m 0 c).arrAt_eq_of_cover 2 (Cert.Product.matProd (lhsArr m c) (rhsArr m c)) (fun t _ => flushed_eq m c t) cover

/-- The kernel's run, read: the result array ends at the full product of the arrays the region finds, the arguments
    unchanged. -/
theorem run : θ_run defs (onTc (τ := τ) (main (F := Ideal))) ⟨m, fun _ => 0, ρ⟩ fun r => ∀ c : Dev nD,
      r.2.mem ((c : Thread nD τ).loc main_v43) = Cert.Product.matProd (lhsArr m c) (rhsArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Product

end
-- ==== Proof.KernelHost.lean ====
/-
  What the kernel's host operations leave in the buffers its region reads, over any contents of the arguments.

  Before the region the host computes, exactly as the reference does, the soft top-k weights, the scaled diagonals
  (buffer `main_v15`) and the wrapped row and column indices of each diagonal entry; it then scatter-adds the scaled
  diagonals into a zero matrix at positions (column index, row index) — the transposed weight — and hands the
  region the input and that matrix, each after a change of float format, which over the extended reals is the identity.
-/
import proofs.«122876_j65618510348677_1_alg».proof.Proof.Gen.KernelIdeal.Frame
import Idealize.ShloMosaic.Lib.StableHlo.Run
import Idealize.ShloMosaic.PureOps.Ideal

noncomputable section

namespace Cert.KernelIdeal.HostValues

open Cert.KernelIdeal Cert.KernelIdeal.Gen Idealize.ShloMosaic Idealize.ShloMosaic.TcCoe Idealize.SL.Sem
open Idealize.ShloMosaic.StableHlo

/-- Every host operation before the region, in order. -/
abbrev hostOps : List (HloOp τ sig (Elt Ideal)) :=
  List.flatten [hostOps0, hostOps0_1, hostOps0_2, hostOps0_3, hostOps0_4]

variable (W : Valuation τ sig (Elt Ideal))

/-- The first staged array is the input: the change of format is the identity over the extended reals. -/
theorem lhs_val :
    (after hostOps W (Proc.devRef .tc main_v41) : S8192x4096.Idx → EReal) = W (Proc.devRef .tc main_arg0) := by
  simp only [hostOps, hostOps0, hostOps0_1, hostOps0_2, hostOps0_3, hostOps0_4, List.flatten_cons, List.flatten_nil,
    List.append_nil, List.cons_append, List.nil_append]
  after_results_simp
  rfl

/-- The matrix the scatter starts from is all zeros. -/
theorem zeros_val :
    (after hostOps W (Proc.devRef .tc main_v26) : S4096x4096.Idx → EReal)
      = broadcastInDim S4096x4096 ![] bcast_S_S4096x4096 (constant (F := Ideal) S_ .f32 0x00000000#32) := by
  simp only [hostOps, hostOps0, hostOps0_1, hostOps0_2, hostOps0_3, hostOps0_4, List.flatten_cons, List.flatten_nil,
    List.append_nil, List.cons_append, List.nil_append]
  after_results_simp

/-- The second staged array is the scatter-add of the scaled diagonals into the zero matrix at positions
    (what `main_v31` holds, what `main_v36` holds), the two index planes given a unit axis and laid side by side. -/
theorem rhs_val :
    (after hostOps W (Proc.devRef .tc main_v42) : S4096x4096.Idx → EReal)
      = Host.scatterAdd (F := Ideal) (φ := .f32) scatter_S4096x4096_S4096x4096x2_S4096x4096_n_01_01_2
          (after hostOps W (Proc.devRef .tc main_v26) : S4096x4096.Idx → EReal)
          (concatenate S4096x4096x2 2
            [⟨S4096x4096x1, broadcastInDim S4096x4096x1 ![0, 1] bcast_S4096x4096_S4096x4096x1_0_1
                (after hostOps W (Proc.devRef .tc main_v31) : IVec S4096x4096 32)⟩,
             ⟨S4096x4096x1, broadcastInDim S4096x4096x1 ![0, 1] bcast_S4096x4096_S4096x4096x1_0_1
                (after hostOps W (Proc.devRef .tc main_v36) : IVec S4096x4096 32)⟩]
            concatenates_S4096x4096x1_S4096x4096x1_S4096x4096x2_d2)
          (after hostOps W (Proc.devRef .tc main_v15) : S4096x4096.Idx → EReal) := by
  simp only [hostOps, hostOps0, hostOps0_1, hostOps0_2, hostOps0_3, hostOps0_4, List.flatten_cons, List.flatten_nil,
    List.append_nil, List.cons_append, List.nil_append]
  after_results_simp
  rfl

end Cert.KernelIdeal.HostValues

end
-- ==== Proof.RefOps.lean ====
/- (run in the certificate's directory). The reference's @main as the LIST of its 80 host operations, in the order
   the printed program runs them, each module-local function's operations at its call over that call's buffers; and
   that each touches TensorCore buffers only. A table read off the printed program: it argues nothing. -/
import proofs.«122876_j65618510348677_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- @main's 80 operations, in order. -/
abbrev ops : List (HloOp τ sig (Elt F)) :=
  [ StableHlo.nullary main_cst (constant S_ .f32 0xFF800000#32),
    StableHlo.binary main_arg2 main_cst main_v0 ((fun x v => Host.reduce FloatOps.maximumf x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_0 (constant S_ .f32 0xFF800000#32),
    StableHlo.binary main_cst_0 main_v0 main_v1 (maximumf : (⟨S_, .f32⟩ : BufTy).Contents (Elt F) → (⟨S_, .f32⟩ : BufTy).Contents (Elt F) → (⟨S_, .f32⟩ : BufTy).Contents (Elt F)),
    StableHlo.unary main_v1 main_v2 (broadcastInDim S1 ![] bcast_S_S1 : (⟨S_, .f32⟩ : BufTy).Contents (Elt F) → (⟨S1, .f32⟩ : BufTy).Contents (Elt F)),
    StableHlo.unary main_v2 main_v3 (broadcastInDim S4096 ![0] bcast_S1_S4096_0 : (⟨S1, .f32⟩ : BufTy).Contents (Elt F) → (⟨S4096, .f32⟩ : BufTy).Contents (Elt F)),
    StableHlo.binary main_arg2 main_v3 main_v4 (subf : (⟨S4096, .f32⟩ : BufTy).Contents (Elt F) → (⟨S4096, .f32⟩ : BufTy).Contents (Elt F) → (⟨S4096, .f32⟩ : BufTy).Contents (Elt F)),
    StableHlo.unary main_v4 main_v5 (Host.exp : (⟨S4096, .f32⟩ : BufTy).Contents (Elt F) → (⟨S4096, .f32⟩ : BufTy).Contents (Elt F)),
    StableHlo.nullary main_cst_1 (constant S_ .f32 0x00000000#32),
    StableHlo.binary main_v5 main_cst_1 main_v6 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v6 main_v7 (broadcastInDim S1 ![] bcast_S_S1 : (⟨S_, .f32⟩ : BufTy).Contents (Elt F) → (⟨S1, .f32⟩ : BufTy).Contents (Elt F)),
    StableHlo.unary main_v7 main_v8 (broadcastInDim S4096 ![0] bcast_S1_S4096_0 : (⟨S1, .f32⟩ : BufTy).Contents (Elt F) → (⟨S4096, .f32⟩ : BufTy).Contents (Elt F)),
    StableHlo.binary main_v5 main_v8 main_v9 (Host.divf : (⟨S4096, .f32⟩ : BufTy).Contents (Elt F) → (⟨S4096, .f32⟩ : BufTy).Contents (Elt F) → (⟨S4096, .f32⟩ : BufTy).Contents (Elt F)),
    StableHlo.nullary main_cst_2 (constant S_ .f32 0x45667000#32),
    StableHlo.unary main_cst_2 main_v10 (broadcastInDim S4096 ![] bcast_S_S4096 : (⟨S_, .f32⟩ : BufTy).Contents (Elt F) → (⟨S4096, .f32⟩ : BufTy).Contents (Elt F)),
    StableHlo.binary main_v10 main_v9 main_v11 (mulf : (⟨S4096, .f32⟩ : BufTy).Contents (Elt F) → (⟨S4096, .f32⟩ : BufTy).Contents (Elt F) → (⟨S4096, .f32⟩ : BufTy).Contents (Elt F)),
    StableHlo.nullary main_cst_3 (constant S_ .f32 0x00000000#32),
    StableHlo.nullary main_cst_4 (constant S_ .f32 0x3F800000#32),
    StableHlo.TRef.unary (.of main_cst_3 : StableHlo.TRef sig ⟨S_, .f32⟩) main_call0.v0 id,
    StableHlo.TRef.unary main_call0.v0 main_call0.v1 (broadcastInDim S4096 ![] bcast_S_S4096),
    StableHlo.TRef.binary main_call0.v1 (.of main_v11 : StableHlo.TRef sig ⟨S4096, .f32⟩) main_call0.v2 maximumf,
    StableHlo.TRef.unary (.of main_cst_4 : StableHlo.TRef sig ⟨S_, .f32⟩) main_call0.v3 id,
    StableHlo.TRef.unary main_call0.v3 main_call0.v4 (broadcastInDim S4096 ![] bcast_S_S4096),
    StableHlo.TRef.binary main_call0.v4 main_call0.v2 main_call0.v5 minimumf,
    StableHlo.unary main_v12 main_v13 (broadcastInDim S4096x1 ![0] bcast_S4096_S4096x1_0 : (⟨S4096, .f32⟩ : BufTy).Contents (Elt F) → (⟨S4096x1, .f32⟩ : BufTy).Contents (Elt F)),
    StableHlo.unary main_v13 main_v14 (broadcastInDim S4096x4096 ![0, 1] bcast_S4096x1_S4096x4096_0_1 : (⟨S4096x1, .f32⟩ : BufTy).Contents (Elt F) → (⟨S4096x4096, .f32⟩ : BufTy).Contents (Elt F)),
    StableHlo.binary main_arg1 main_v14 main_v15 (mulf : (⟨S4096x4096, .f32⟩ : BufTy).Contents (Elt F) → (⟨S4096x4096, .f32⟩ : BufTy).Contents (Elt F) → (⟨S4096x4096, .f32⟩ : BufTy).Contents (Elt F)),
    StableHlo.nullary main_v16 (iotaInDim S4096 32 0),
    StableHlo.nullary main_v17 (iotaInDim S4096 32 0),
    StableHlo.unary main_v17 main_v18 (broadcastInDim S4096x1 ![0] bcast_S4096_S4096x1_0 : (⟨S4096, .i32⟩ : BufTy).Contents (Elt F) → (⟨S4096x1, .i32⟩ : BufTy).Contents (Elt F)),
    StableHlo.unary main_v16 main_v19 (broadcastInDim S1x4096 ![1] bcast_S4096_S1x4096_1 : (⟨S4096, .i32⟩ : BufTy).Contents (Elt F) → (⟨S1x4096, .i32⟩ : BufTy).Contents (Elt F)),
    StableHlo.unary main_v18 main_v20 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v19 main_v21 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v20 main_v21 main_v22 (addi : (⟨S4096x4096, .i32⟩ : BufTy).Contents (Elt F) → (⟨S4096x4096, .i32⟩ : BufTy).Contents (Elt F) → (⟨S4096x4096, .i32⟩ : BufTy).Contents (Elt F)),
    StableHlo.nullary main_c (constantI S_ 32 4096#32),
    StableHlo.TRef.unary (.of main_c : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S4096x4096 ![] bcast_S_S4096x4096),
    StableHlo.TRef.binary (.of main_v22 : StableHlo.TRef sig ⟨S4096x4096, .i32⟩) main_call1.v3 main_call1.v4 Host.remsi,
    StableHlo.TRef.nullary main_call1.c_1 (constantI S_ 32 0#32),
    StableHlo.TRef.unary main_call1.c_1 main_call1.v5 (broadcastInDim S4096x4096 ![] bcast_S_S4096x4096),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S4096x4096 ![] bcast_S_S4096x4096),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S4096x4096 ![] bcast_S_S4096x4096),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S4096x4096 ![] bcast_S_S4096x4096),
    StableHlo.TRef.binary main_call1.v4 main_call1.v13 main_call1.v14 addi,
    StableHlo.TRef.ternary main_call1.v12 main_call1.v14 main_call1.v4 main_call1.v15 select,
    StableHlo.unary main_v16 main_v24 (broadcastInDim S1x4096 ![1] bcast_S4096_S1x4096_1 : (⟨S4096, .i32⟩ : BufTy).Contents (Elt F) → (⟨S1x4096, .i32⟩ : BufTy).Contents (Elt F)),
    StableHlo.unary main_v24 main_v25 (broadcastInDim S4096x4096 ![0, 1] bcast_S1x4096_S4096x4096_0_1 : (⟨S1x4096, .i32⟩ : BufTy).Contents (Elt F) → (⟨S4096x4096, .i32⟩ : BufTy).Contents (Elt F)),
    StableHlo.nullary main_cst_5 (constant S_ .f32 0x00000000#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.nullary main_c_6 (constantI S_ 32 0#32),
    StableHlo.unary main_c_6 main_v27 (broadcastInDim S4096x4096 ![] bcast_S_S4096x4096 : (⟨S_, .i32⟩ : BufTy).Contents (Elt F) → (⟨S4096x4096, .i32⟩ : BufTy).Contents (Elt F)),
    StableHlo.binary main_v23 main_v27 main_v28 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_7 (constantI S_ 32 4096#32),
    StableHlo.unary main_c_7 main_v29 (broadcastInDim S4096x4096 ![] bcast_S_S4096x4096 : (⟨S_, .i32⟩ : BufTy).Contents (Elt F) → (⟨S4096x4096, .i32⟩ : BufTy).Contents (Elt F)),
    StableHlo.binary main_v23 main_v29 main_v30 (addi : (⟨S4096x4096, .i32⟩ : BufTy).Contents (Elt F) → (⟨S4096x4096, .i32⟩ : BufTy).Contents (Elt F) → (⟨S4096x4096, .i32⟩ : BufTy).Contents (Elt F)),
    StableHlo.ternary main_v28 main_v30 main_v23 main_v31 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.nullary main_c_8 (constantI S_ 32 0#32),
    StableHlo.unary main_c_8 main_v32 (broadcastInDim S4096x4096 ![] bcast_S_S4096x4096 : (⟨S_, .i32⟩ : BufTy).Contents (Elt F) → (⟨S4096x4096, .i32⟩ : BufTy).Contents (Elt F)),
    StableHlo.binary main_v25 main_v32 main_v33 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_9 (constantI S_ 32 4096#32),
    StableHlo.unary main_c_9 main_v34 (broadcastInDim S4096x4096 ![] bcast_S_S4096x4096 : (⟨S_, .i32⟩ : BufTy).Contents (Elt F) → (⟨S4096x4096, .i32⟩ : BufTy).Contents (Elt F)),
    StableHlo.binary main_v25 main_v34 main_v35 (addi : (⟨S4096x4096, .i32⟩ : BufTy).Contents (Elt F) → (⟨S4096x4096, .i32⟩ : BufTy).Contents (Elt F) → (⟨S4096x4096, .i32⟩ : BufTy).Contents (Elt F)),
    StableHlo.ternary main_v33 main_v35 main_v25 main_v36 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.unary main_v31 main_v37 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.unary main_v36 main_v38 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.binary main_v37 main_v38 main_v39 ((fun a b => concatenate S4096x4096x2 2 [⟨S4096x4096x1, a⟩, ⟨S4096x4096x1, b⟩] concatenates_S4096x4096x1_S4096x4096x1_S4096x4096x2_d2) : (⟨S4096x4096x1, .i32⟩ : BufTy).Contents (Elt F) → (⟨S4096x4096x1, .i32⟩ : BufTy).Contents (Elt F) → (⟨S4096x4096x2, .i32⟩ : BufTy).Contents (Elt F)),
    StableHlo.ternary main_v26 main_v39 main_v15 main_v40 ((fun x i u => Host.scatterAdd scatter_S4096x4096_S4096x4096x2_S4096x4096_n_01_01_2 x i u) : (⟨S4096x4096, .f32⟩ : BufTy).Contents (Elt F) → (⟨S4096x4096x2, .i32⟩ : BufTy).Contents (Elt F) → (⟨S4096x4096, .f32⟩ : BufTy).Contents (Elt F) → (⟨S4096x4096, .f32⟩ : BufTy).Contents (Elt F)),
    StableHlo.unary main_v40 main_v41 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v41 main_v42 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) ]

/-- Each touches TensorCore buffers only. -/
theorem ops_sub : (ops : List (HloOp τ sig (Elt F))).Forall fun op => op.bufs ⊆ StableHlo.tcRefs τ sig :=
  ⟨StableHlo.nullary_bufs_sub ..,
    StableHlo.binary_bufs_sub ..,
    StableHlo.nullary_bufs_sub ..,
    StableHlo.binary_bufs_sub ..,
    StableHlo.unary_bufs_sub ..,
    StableHlo.unary_bufs_sub ..,
    StableHlo.binary_bufs_sub ..,
    StableHlo.unary_bufs_sub ..,
    StableHlo.nullary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.nullary_bufs_sub ..,
    StableHlo.unary_bufs_sub ..,
    StableHlo.unary_bufs_sub ..,
    StableHlo.binary_bufs_sub ..,
    StableHlo.unary_bufs_sub ..,
    StableHlo.unary_bufs_sub ..,
    StableHlo.binary_bufs_sub ..,
    StableHlo.unary_bufs_sub ..,
    StableHlo.unary_bufs_sub ..,
    StableHlo.binary_bufs_sub ..,
    StableHlo.nullary_bufs_sub ..,
    StableHlo.nullary_bufs_sub ..,
    StableHlo.unary_bufs_sub ..,
    StableHlo.unary_bufs_sub ..,
    StableHlo.unary_bufs_sub ..,
    StableHlo.unary_bufs_sub ..,
    StableHlo.binary_bufs_sub ..,
    StableHlo.nullary_bufs_sub ..,
    StableHlo.unary_bufs_sub ..,
    StableHlo.nullary_bufs_sub ..,
    StableHlo.binary_bufs_sub ..,
    StableHlo.nullary_bufs_sub ..,
    StableHlo.ternary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.binary_bufs_sub ..,
    StableHlo.unary_bufs_sub ..,
    StableHlo.binary_bufs_sub ..,
    StableHlo.binary_bufs_sub ..,
    StableHlo.unary_bufs_sub ..,
    StableHlo.binary_bufs_sub ..,
    StableHlo.ternary_bufs_sub ..,
    StableHlo.unary_bufs_sub ..,
    StableHlo.unary_bufs_sub ..,
    StableHlo.nullary_bufs_sub ..,
    StableHlo.unary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.ternary_bufs_sub ..,
    StableHlo.unary_bufs_sub ..,
    StableHlo.binary_bufs_sub ..⟩

end Cert.ReferenceIdeal.HostRun

end
-- ==== Proof.RefRun.lean ====
/-
  The reference's run. Its @main is a straight line of host operations (the three helper functions the trace
  outlined — the clamp of the soft top-k weights, the remainder that wraps a diagonal's row index, the select inside
  it — run their bodies at the call, each value of a body in a buffer of its own), so every weakly fair execution
  ends, and each buffer then holds what the operations, applied in order to the launch contents, leave in it.
-/
import proofs.«122876_j65618510348677_1_alg».proof.Proof.RefOps
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-- @main is that straight line: with the helper functions' bodies put at their calls, both sides are one chain of
    host steps, the sequencing re-associated one step at a time by computation. -/
theorem main_eq (c : Dev nD) : main (F := F) c = seq ops := by
  chain_rfl

/-- The reference scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- From any memory with zero counters every weakly fair execution of the reference ends, and every buffer then holds
    what the operations, in order, leave in it over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.HostRun

end
-- ==== Proof.RefHost.lean ====
/-
  What the reference's operations leave in its result buffer, over any contents of the arguments.

  The reference computes the same soft top-k weights, scaled diagonals (`main_v15`) and wrapped row and column indices
  as the kernel's host part; it scatter-adds the scaled diagonals into a zero matrix at positions (row index, column
  index) — the weight itself —, transposes it, and multiplies the input by the transpose, contracting the input's
  columns with the transposed matrix's rows.
-/
import proofs.«122876_j65618510348677_1_alg».proof.Proof.RefRun
import Idealize.ShloMosaic.PureOps.Ideal

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable (W : Valuation τ sig (Elt Ideal))

/-- The matrix the scatter starts from is all zeros. -/
theorem zeros_val :
    (after ops W (Proc.devRef .tc main_v26) : S4096x4096.Idx → EReal)
      = broadcastInDim S4096x4096 ![] bcast_S_S4096x4096 (constant (F := Ideal) S_ .f32 0x00000000#32) := by
  after_results_simp

/-- The result: the input times the transpose of the scatter-add of the scaled diagonals into the zero matrix at
    positions (what `main_v31` holds, what `main_v36` holds). -/
theorem out_val :
    (after ops W (Proc.devRef .tc main_v42) : S8192x4096.Idx → EReal)
      = Host.dotGeneral (F := Ideal) (φ₁ := .f32) (φ₂ := .f32) dot_S8192x4096_S4096x4096_S8192x4096_1_0_0_1_n_n none
          (W (Proc.devRef .tc main_arg0) : S8192x4096.Idx → EReal)
          (transpose S4096x4096 [1, 0]
            (Host.scatterAdd (F := Ideal) (φ := .f32) scatter_S4096x4096_S4096x4096x2_S4096x4096_n_01_01_2
              (after ops W (Proc.devRef .tc main_v26) : S4096x4096.Idx → EReal)
              (concatenate S4096x4096x2 2
                [⟨S4096x4096x1, broadcastInDim S4096x4096x1 ![0, 1] bcast_S4096x4096_S4096x4096x1_0_1
                    (after ops W (Proc.devRef .tc main_v31) : IVec S4096x4096 32)⟩,
                 ⟨S4096x4096x1, broadcastInDim S4096x4096x1 ![0, 1] bcast_S4096x4096_S4096x4096x1_0_1
                    (after ops W (Proc.devRef .tc main_v36) : IVec S4096x4096 32)⟩]
                concatenates_S4096x4096x1_S4096x4096x1_S4096x4096x2_d2)
              (after ops W (Proc.devRef .tc main_v15) : S4096x4096.Idx → EReal))
            transposes_S4096x4096_S4096x4096_1_0) := by
  after_results_simp
  rfl

/-- No operation writes an argument. -/
theorem arg0_kept : after ops W (Proc.devRef .tc main_arg0) = W (Proc.devRef .tc main_arg0) := by
  after_results_simp
theorem arg1_kept : after ops W (Proc.devRef .tc main_arg1) = W (Proc.devRef .tc main_arg1) := by
  after_results_simp
theorem arg2_kept : after ops W (Proc.devRef .tc main_arg2) = W (Proc.devRef .tc main_arg2) := by
  after_results_simp

end Cert.ReferenceIdeal.HostRun

end
-- ==== Proof.Agree.lean ====
/-
  The two programs' host parts agree, and so do their results.

  Up to the scatter the kernel's host part and the reference run the same operations on the same arguments: the
  wrapped column-index plane, the wrapped row-index plane and the scaled diagonals are the same three arrays in both
  (the index planes do not even depend on the arguments). The kernel lays the planes down as (column, row), the
  reference as (row, column); by the bridge, the reference's product with the transposed scatter is the product with
  the kernel's scatter.
-/
import proofs.«122876_j65618510348677_1_alg».proof.Proof.KernelHost
import proofs.«122876_j65618510348677_1_alg».proof.Proof.RefHost
import proofs.«122876_j65618510348677_1_alg».proof.Proof.Product

noncomputable section

namespace Cert.Agree

open Idealize.ShloMosaic Idealize.ShloMosaic.TcCoe Idealize.SL.Sem Idealize.ShloMosaic.ValueIdx
open Idealize.ShloMosaic.StableHlo
open Cert.Lib.ScatterSwap (Sq Upd Plane Pairs pairIdx)
open Cert.Product (Rows matProd)

variable (WK : Valuation Cert.KernelIdeal.τ Cert.KernelIdeal.sig (Elt Ideal)) (WR : Valuation Cert.ReferenceIdeal.τ Cert.ReferenceIdeal.sig (Elt Ideal))

/-- The wrapped column indices: the kernel's first plane is the reference's second. -/
theorem cols_agree :
    (after Cert.KernelIdeal.HostValues.hostOps WK (Proc.devRef .tc Cert.KernelIdeal.main_v31) : IVec (Upd 4096 4096) 32)
      = after Cert.ReferenceIdeal.HostRun.ops WR (Proc.devRef .tc Cert.ReferenceIdeal.main_v36) := by
  simp only [Cert.KernelIdeal.HostValues.hostOps, Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append]
  after_results_simp

/-- The wrapped row indices: the kernel's second plane is the reference's first. -/
theorem rows_agree :
    (after Cert.KernelIdeal.HostValues.hostOps WK (Proc.devRef .tc Cert.KernelIdeal.main_v36) : IVec (Upd 4096 4096) 32)
      = after Cert.ReferenceIdeal.HostRun.ops WR (Proc.devRef .tc Cert.ReferenceIdeal.main_v31) := by
  simp only [Cert.KernelIdeal.HostValues.hostOps, Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append]
  after_results_simp

/-- The scaled diagonals are the same function of the second and third arguments. -/
theorem diag_agree
    (h1 : (WR (Proc.devRef .tc Cert.ReferenceIdeal.main_arg1) : (Upd 4096 4096).Idx → EReal) = WK (Proc.devRef .tc Cert.KernelIdeal.main_arg1))
    (h2 : (WR (Proc.devRef .tc Cert.ReferenceIdeal.main_arg2) : (⟨1, ![4096]⟩ : Shape).Idx → EReal) = WK (Proc.devRef .tc Cert.KernelIdeal.main_arg2)) :
    (after Cert.KernelIdeal.HostValues.hostOps WK (Proc.devRef .tc Cert.KernelIdeal.main_v15) : (Upd 4096 4096).Idx → EReal)
      = after Cert.ReferenceIdeal.HostRun.ops WR (Proc.devRef .tc Cert.ReferenceIdeal.main_v15) := by
  simp only [Cert.KernelIdeal.HostValues.hostOps, Cert.KernelIdeal.Gen.hostOps0, Cert.KernelIdeal.Gen.hostOps0_1, Cert.KernelIdeal.Gen.hostOps0_2, Cert.KernelIdeal.Gen.hostOps0_3,
    Cert.KernelIdeal.Gen.hostOps0_4, List.flatten_cons, List.flatten_nil, List.append_nil, List.cons_append, List.nil_append]
  after_results_simp
  rw [h1, h2]

/-- A constant matrix is its own mirror image. -/
theorem const_symm (hb0 : (⟨0, ![]⟩ : Shape).BroadcastsInDim (Sq 4096) ![]) (v : (⟨0, ![]⟩ : Shape).Idx → EReal)
    (a b : Fin 4096) :
    broadcastInDim (Sq 4096) ![] hb0 v (ix2 a b) = broadcastInDim (Sq 4096) ![] hb0 v (ix2 b a) := by
  unfold broadcastInDim
  exact congrArg v (funext fun x => x.elim0)

/-- THE RESULTS AGREE: from arguments that agree, the reference's result is the product of the input by the matrix the
    kernel's host part scatters. -/
theorem ref_result_eq
    (h0 : (WR (Proc.devRef .tc Cert.ReferenceIdeal.main_arg0) : Rows.Idx → EReal) = WK (Proc.devRef .tc Cert.KernelIdeal.main_arg0))
    (h1 : (WR (Proc.devRef .tc Cert.ReferenceIdeal.main_arg1) : (Upd 4096 4096).Idx → EReal) = WK (Proc.devRef .tc Cert.KernelIdeal.main_arg1))
    (h2 : (WR (Proc.devRef .tc Cert.ReferenceIdeal.main_arg2) : (⟨1, ![4096]⟩ : Shape).Idx → EReal) = WK (Proc.devRef .tc Cert.KernelIdeal.main_arg2)) :
    (after Cert.ReferenceIdeal.HostRun.ops WR (Proc.devRef .tc Cert.ReferenceIdeal.main_v42) : Rows.Idx → EReal)
      = matProd (WK (Proc.devRef .tc Cert.KernelIdeal.main_arg0))
          (after Cert.KernelIdeal.HostValues.hostOps WK (Proc.devRef .tc Cert.KernelIdeal.main_v42)) := by
  rw [Cert.ReferenceIdeal.HostRun.out_val, Cert.KernelIdeal.HostValues.rhs_val, Cert.ReferenceIdeal.HostRun.zeros_val, Cert.KernelIdeal.HostValues.zeros_val,
    ← cols_agree WK WR, ← rows_agree WK WR, ← diag_agree WK WR h1 h2, h0]
  exact Cert.Product.dot_transpose_scatter _ rfl rfl rfl rfl rfl rfl _ _ rfl rfl rfl rfl _ _ _ _ _
    (const_symm _ _) _ _

end Cert.Agree

end
-- ==== Proof.lean ====
/-
  The certificate: the kernel and its reference compute the same 8192 × 4096 array over the extended reals.

  The kernel's program builds a weight matrix on the host — it scales the diagonals `V` by weights computed from
  `alpha`, computes for every diagonal entry a column index and a row index, and scatter-adds the scaled entry at
  position (column index, row index) of a zero 4096 × 4096 matrix `Wt` — and its one kernel region multiplies the input
  by that matrix block by block (a 16 × 4 grid of 512 × 1024 result blocks, each the full-depth product of a row block
  and a column block); the blocks tile the result, which is therefore the full product `x · Wt`. The reference computes
  the same scaled entries and the same two index planes by the same operations, scatter-adds each entry at the
  mirrored position (row index, column index), transposes, and multiplies. Mirrored positions in a square matrix give
  the transposed matrix — whatever the indices are —, so both results are `∑ k, x (b, k) · Wt (k, o)`, the same sums
  term by term; the kernel's changes of float format are the identity over the extended reals. The precondition is not used: no sum is
  re-ordered and no factor moved, so nothing needs the inputs finite.

  The three runs: the word-level kernel's and the idealized kernel's frames are the generated ones; the reference is a
  straight line of host operations, whose run leaves every argument as it was. The ideal pass rewrote nothing, so the
  idealization claim is trivial.
-/
import proofs.«122876_j65618510348677_1_alg».proof.Defs
import proofs.«122876_j65618510348677_1_alg».proof.Proof.Gen.Kernel
import proofs.«122876_j65618510348677_1_alg».proof.Proof.Gen.Kernel.Frame
import proofs.«122876_j65618510348677_1_alg».proof.Proof.Gen.KernelIdeal
import proofs.«122876_j65618510348677_1_alg».proof.Proof.Gen.KernelIdeal.Frame
import proofs.«122876_j65618510348677_1_alg».proof.Proof.Gen.ReferenceIdeal
import proofs.«122876_j65618510348677_1_alg».proof.Proof.Gen.Pre_finite_inputs
import proofs.«122876_j65618510348677_1_alg».proof.Proof.KernelBlocks
import proofs.«122876_j65618510348677_1_alg».proof.Proof.Agree

noncomputable section

namespace Cert.Proof

open Idealize.ShloMosaic Idealize.ShloMosaic.TcCoe Idealize.SL.Sem Idealize.ShloMosaic.StableHlo

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs, and no operation of it writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.HostRun.arg0_kept _),
      (h c Cert.ReferenceIdeal.main_arg1).trans (Cert.ReferenceIdeal.HostRun.arg1_kept _),
      (h c Cert.ReferenceIdeal.main_arg2).trans (Cert.ReferenceIdeal.HostRun.arg2_kept _)⟩)
    (Cert.ReferenceIdeal.HostRun.run_all (F := Ideal) m ρ)

/-- The ideal pass rewrote no operation. -/
theorem preserves : Cert.preserves_Kernel_KernelIdeal := trivial

/-- Both programs end with the product of the input by the matrix the kernel's host part scatters. -/
theorem algebraic : Cert.algebraic_KernelIdeal_ReferenceIdeal := by
  intro m ρ m' ρ' _ hagree
  refine ⟨fun c => Cert.Product.matProd (m ((c.tc : Thread Cert.KernelIdeal.nD Cert.KernelIdeal.τ).loc Cert.KernelIdeal.main_arg0))
    (Cert.KernelIdeal.Gen.V m c Cert.KernelIdeal.main_v42), ?_, ?_⟩
  · refine (θ_run Cert.KernelIdeal.defs _ _).mono (fun r h c => ⟨(h c).1.trans ?_, (h c).2⟩)
      (Cert.KernelIdeal.Product.run m ρ)
    exact congrArg (fun A => Cert.Product.matProd A (Cert.KernelIdeal.Gen.V m c Cert.KernelIdeal.main_v42))
      (Cert.KernelIdeal.HostValues.lhs_val (launchContents m c))
  · refine (θ_run Cert.ReferenceIdeal.defs _ _).mono
      (fun r h c => ⟨(h c Cert.ReferenceIdeal.main_v42).trans ?_,
        (h c Cert.ReferenceIdeal.main_arg0).trans (Cert.ReferenceIdeal.HostRun.arg0_kept _),
        (h c Cert.ReferenceIdeal.main_arg1).trans (Cert.ReferenceIdeal.HostRun.arg1_kept _),
        (h c Cert.ReferenceIdeal.main_arg2).trans (Cert.ReferenceIdeal.HostRun.arg2_kept _)⟩)
      (Cert.ReferenceIdeal.HostRun.run_all (F := Ideal) m' ρ')
    exact Cert.Agree.ref_result_eq (launchContents m c) (launchContents m' c) (hagree c).1 (hagree c).2.1 (hagree c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
